-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x768 : Shape := ⟨3, ![32, 4096, 768]⟩
abbrev S32x128 : Shape := ⟨2, ![32, 128]⟩
abbrev S768x1 : Shape := ⟨2, ![768, 1]⟩
abbrev S1 : Shape := ⟨1, ![1]⟩
abbrev S_ : Shape := ⟨0, ![]⟩

class Facts : Prop where
  bcast_S_S32x4096x768 : S_.BroadcastsInDim S32x4096x768 (![] : Fin 0 → Fin S32x4096x768.rank)
  reducesTo_S32x4096x768_S_d0_1_2 : S32x4096x768.ReducesTo [0, 1, 2] S_
  h_S_ : 0 < S_.numel
  bcast_S_S768x1 : S_.BroadcastsInDim S768x1 (![] : Fin 0 → Fin S768x1.rank)
  reducesTo_S768x1_S_d0_1 : S768x1.ReducesTo [0, 1] S_
  bcast_S_S1 : S_.BroadcastsInDim S1 (![] : Fin 0 → Fin S1.rank)
  reducesTo_S1_S_d0 : S1.ReducesTo [0] S_
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_arg1 : IVec S32x128 32) (main_v13 : IVec S_ 1) (main_v15 : IVec S32x128 1) (main_c_5 : IVec S_ 32) : IVec S_ 1 :=
  let main_v16 : IVec S32x128 32 := broadcastInDim S32x128 ![] bcast_S_S32x128 main_c_5
  let main_v17 : IVec S32x128 1 := cmpi .slt main_arg1 main_v16
  let main_v18 : IVec S32x128 1 := andi main_v15 main_v17
  let main_c_6 : IVec S_ 1 := constantI S_ 1 1#1
  let main_v19 : IVec S_ 1 := (fun x v => Host.reduce IntOp.andi x v reducesTo_S32x128_S_d0_1 h_S_) main_v18 main_c_6
  let main_v20 : IVec S_ 1 := andi main_v13 main_v19
  main_v20

def fn {F : FTy → Type} [FloatOps F] (main_arg0 : FVec F S32x4096x768 .f32) (main_arg1 : IVec S32x128 32) (main_arg2 : FVec F S768x1 .f32) (main_arg3 : FVec F S1 .f32) : IVec S_ 1 :=
  let main_v0 : FVec F S32x4096x768 .f32 := Host.absf main_arg0
  let main_cst : FVec F S_ .f32 := constant S_ .f32 0x7F800000#32
  let main_v1 : FVec F S32x4096x768 .f32 := broadcastInDim S32x4096x768 ![] bcast_S_S32x4096x768 main_cst
  let main_v2 : IVec S32x4096x768 1 := cmpf .olt main_v0 main_v1
  let main_c : IVec S_ 1 := constantI S_ 1 1#1
  let main_v3 : IVec S_ 1 := (fun x v => Host.reduce IntOp.andi x v reducesTo_S32x4096x768_S_d0_1_2 h_S_) main_v2 main_c
  let main_v4 : FVec F S768x1 .f32 := Host.absf main_arg2
  let main_cst_0 : FVec F S_ .f32 := constant S_ .f32 0x7F800000#32
  let main_v5 : FVec F S768x1 .f32 := broadcastInDim S768x1 ![] bcast_S_S768x1 main_cst_0
  let main_v6 : IVec S768x1 1 := cmpf .olt main_v4 main_v5
  let main_c_1 : IVec S_ 1 := constantI S_ 1 1#1
  let main_v7 : IVec S_ 1 := (fun x v => Host.reduce IntOp.andi x v reducesTo_S768x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S32x128 32 := broadcastInDim S32x128 ![] bcast_S_S32x128 main_c_4
  let main_v15 : IVec S32x128 1 := cmpi .sge main_arg1 main_v14
  let main_c_5 : IVec S_ 32 := constantI S_ 32 4096#32
  fn_part1 (F := F) main_arg1 main_v13 main_v15 main_c_5
-- ==== Kernel.lean ====
abbrev S32x4096x768 : Shape := ⟨3, ![32, 4096, 768]⟩
abbrev S32x128 : Shape := ⟨2, ![32, 128]⟩
abbrev S768x1 : Shape := ⟨2, ![768, 1]⟩
abbrev S1 : Shape := ⟨1, ![1]⟩
abbrev S32x1x128 : Shape := ⟨3, ![32, 1, 128]⟩
abbrev S1x1x128 : Shape := ⟨3, ![1, 1, 128]⟩
abbrev S1x4096x768 : Shape := ⟨3, ![1, 4096, 768]⟩
abbrev S128 : Shape := ⟨1, ![128]⟩
abbrev S4096x768 : Shape := ⟨2, ![4096, 768]⟩
abbrev S128x4096 : Shape := ⟨2, ![128, 4096]⟩
abbrev S128x1 : Shape := ⟨2, ![128, 1]⟩
abbrev S128x768 : Shape := ⟨2, ![128, 768]⟩

abbrev nBuf : Space → Nat
  | .hbm => 7
  | .vmem => 8
  | .smem => 0
  | _ => 0

abbrev bufTy : (tb : Table) → Fin (tcTables nBuf tb) → BufTy
  | .hbm, ⟨0, _⟩ => ⟨S32x4096x768, .f32⟩
  | .hbm, ⟨1, _⟩ => ⟨S32x128, .i32⟩
  | .hbm, ⟨2, _⟩ => ⟨S768x1, .f32⟩
  | .hbm, ⟨3, _⟩ => ⟨S1, .f32⟩
  | .hbm, ⟨4, _⟩ => ⟨S32x1x128, .i32⟩
  | .hbm, ⟨5, _⟩ => ⟨S32x1x128, .f32⟩
  | .hbm, ⟨6, _⟩ => ⟨S32x128, .f32⟩
  | .local _ .vmem, ⟨0, _⟩ => ⟨S1x1x128, .i32⟩
  | .local _ .vmem, ⟨1, _⟩ => ⟨S1x1x128, .i32⟩
  | .local _ .vmem, ⟨2, _⟩ => ⟨S1x4096x768, .f32⟩
  | .local _ .vmem, ⟨3, _⟩ => ⟨S1x4096x768, .f32⟩
  | .local _ .vmem, ⟨4, _⟩ => ⟨S768x1, .f32⟩
  | .local _ .vmem, ⟨5, _⟩ => ⟨S1, .f32⟩
  | .local _ .vmem, ⟨6, _⟩ => ⟨S1x1x128, .f32⟩
  | .local _ .vmem, ⟨7, _⟩ => ⟨S1x1x128, .f32⟩
  | _, _ => ⟨S32x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x128_S32x1x128 : S32x128.ShapeCasts S32x1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S1x1x128_S128 : S1x1x128.ShapeCasts S128
  inb_S1x4096x768_S1x4096x768_0_0_0 : ∀ a, (![0, 0, 0] : Fin 3 → Nat) a + S1x4096x768.size a ≤ S1x4096x768.size a
  h_S1x4096x768 : 0 < S1x4096x768.numel
  shapeCasts_S1x4096x768_S4096x768 : S1x4096x768.ShapeCasts S4096x768
  iota_S128x4096_d1_w32 : S128x4096.Iotas .tc 32 [1]
  shapeCasts_S128_S128x1 : S128.ShapeCasts S128x1
  broadcasts_S128x1_S128x4096 : S128x1.Broadcasts S128x4096
  natLt_1_32 : 1 < 32
  bitsLt_bf16_f32 : FTy.bits .bf16 < FTy.bits .f32
  inb_S768x1_S768x1_0_0 : ∀ a, (![0, 0] : Fin 2 → Nat) a + S768x1.size a ≤ S768x1.size a
  h_S768x1 : 0 < S768x1.numel
  inb_S1_S1_0 : ∀ a, (![0] : Fin 1 → Nat) a + S1.size a ≤ S1.size a
  h_S1 : 0 < S1.numel
  shapeCasts_S128x1_S128 : S128x1.ShapeCasts S128
  inpos_S1_p0 : ∀ a, (![0] : Fin 1 → Nat) a < S1.size a
  shapeCasts_S128_S1x1x128 : S128.ShapeCasts S1x1x128
  shapeCasts_S32x1x128_S32x128 : S32x1x128.ShapeCasts S32x128
  dot_S128x4096_S4096x768_S128x768_1_0_0_1_n_n_wf : DotDims.WF S128x4096 S4096x768 S128x768 [1] [0] [0] [1] [] []
  dot_S128x768_S768x1_S128x1_1_0_0_1_n_n_wf : DotDims.WF S128x768 S768x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128.size a ≤ S32x1x128.size a
  hwx0_0 : ∀ i : grid0.Coords, EltTy.bits .i32 = 32 ∨ (Rect.block (s := S32x1x128) S1x1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x768.size a ≤ S32x4096x768.size a
  hwx0_1 : ∀ i : grid0.Coords, EltTy.bits .f32 = 32 ∨ (Rect.block (s := S32x4096x768) S1x4096x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1.size a ≤ S768x1.size a
  hwx0_2 : ∀ i : grid0.Coords, EltTy.bits .f32 = 32 ∨ (Rect.block (s := S768x1) S768x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)

variable [Facts₀]

def dot_S128x4096_S4096x768_S128x768_1_0_0_1_n_n : DotDims S128x4096 S4096x768 S128x768 where
  lhsContracting := [1]
  rhsContracting := [0]
  lhsNonContracting := [0]
  rhsNonContracting := [1]
  lhsBatch := []
  rhsBatch := []
  wf := dot_S128x4096_S4096x768_S128x768_1_0_0_1_n_n_wf
def dot_S128x768_S768x1_S128x1_1_0_0_1_n_n : DotDims S128x768 S768x1 S128x1 where
  lhsContracting := [1]
  rhsContracting := [0]
  lhsNonContracting := [0]
  rhsNonContracting := [1]
  lhsBatch := []
  rhsBatch := []
  wf := dot_S128x768_S768x1_S128x1_1_0_0_1_n_n_wf

abbrev win0_0 : Pipeline.Window sig grid0 :=
  Pipeline.Window.ofSpec (Memref.whole main_v0) S1x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096x768 : Shape := ⟨3, ![32, 4096, 768]⟩
abbrev S32x128 : Shape := ⟨2, ![32, 128]⟩
abbrev S768x1 : Shape := ⟨2, ![768, 1]⟩
abbrev S1 : Shape := ⟨1, ![1]⟩
abbrev S32x128x1 : Shape := ⟨3, ![32, 128, 1]⟩
abbrev S_ : Shape := ⟨0, ![]⟩
abbrev S1x1x1 : Shape := ⟨3, ![1, 1, 1]⟩
abbrev S32x128x768 : Shape := ⟨3, ![32, 128, 768]⟩

abbrev nBuf : Space → Nat
  | .hbm => 32
  | .vmem => 0
  | .smem => 0
  | _ => 0

abbrev bufTy : (tb : Table) → Fin (tcTables nBuf tb) → BufTy
  | .hbm, ⟨0, _⟩ => ⟨S32x4096x768, .f32⟩
  | .hbm, ⟨1, _⟩ => ⟨S32x128, .i32⟩
  | .hbm, ⟨2, _⟩ => ⟨S768x1, .f32⟩
  | .hbm, ⟨3, _⟩ => ⟨S1, .f32⟩
  | .hbm, ⟨4, _⟩ => ⟨S32x128x1, .i32⟩
  | .hbm, ⟨5, _⟩ => ⟨S_, .i32⟩
  | .hbm, ⟨6, _⟩ => ⟨S32x128x1, .i32⟩
  | .hbm, ⟨7, _⟩ => ⟨S32x128x1, .i1⟩
  | .hbm, ⟨8, _⟩ => ⟨S_, .i32⟩
  | .hbm, ⟨9, _⟩ => ⟨S32x128x1, .i32⟩
  | .hbm, ⟨10, _⟩ => ⟨S32x128x1, .i32⟩
  | .hbm, ⟨11, _⟩ => ⟨S32x128x1, .i32⟩
  | .hbm, ⟨12, _⟩ => ⟨S1, .i32⟩
  | .hbm, ⟨13, _⟩ => ⟨S_, .i32⟩
  | .hbm, ⟨14, _⟩ => ⟨S32x128x1, .i32⟩
  | .hbm, ⟨15, _⟩ => ⟨S32x128x1, .i1⟩
  | .hbm, ⟨16, _⟩ => ⟨S1x1x1, .i32⟩
  | .hbm, ⟨17, _⟩ => ⟨S32x128x1, .i32⟩
  | .hbm, ⟨18, _⟩ => ⟨S32x128x1, .i1⟩
  | .hbm, ⟨19, _⟩ => ⟨S32x128x1, .i1⟩
  | .hbm, ⟨20, _⟩ => ⟨S_, .i1⟩
  | .hbm, ⟨21, _⟩ => ⟨S32x128, .i1⟩
  | .hbm, ⟨22, _⟩ => ⟨S32x128x768, .f32⟩
  | .hbm, ⟨23, _⟩ => ⟨S32x128x768, .i1⟩
  | .hbm, ⟨24, _⟩ => ⟨S_, .f32⟩
  | .hbm, ⟨25, _⟩ => ⟨S32x128x768, .f32⟩
  | .hbm, ⟨26, _⟩ => ⟨S32x128x768, .f32⟩
  | .hbm, ⟨27, _⟩ => ⟨S32x128x1, .f32⟩
  | .hbm, ⟨28, _⟩ => ⟨S1x1x1, .f32⟩
  | .hbm, ⟨29, _⟩ => ⟨S32x128x1, .f32⟩
  | .hbm, ⟨30, _⟩ => ⟨S32x128x1, .f32⟩
  | .hbm, ⟨31, _⟩ => ⟨S32x128, .f32⟩
  | _, _ => ⟨S32x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S32x128_S32x128x1_0_1 : S32x128.BroadcastsInDim S32x128x1 (![0, 1] : Fin 2 → Fin S32x128x1.rank)
  bcast_S_S32x128x1 : S_.BroadcastsInDim S32x128x1 (![] : Fin 0 → Fin S32x128x1.rank)
  bcast_S1_S1x1x1_2 : S1.BroadcastsInDim S1x1x1 (![2] : Fin 1 → Fin S1x1x1.rank)
  bcast_S1x1x1_S32x128x1_0_1_2 : S1x1x1.BroadcastsInDim S32x128x1 (![0, 1, 2] : Fin 3 → Fin S32x128x1.rank)
  reducesTo_S32x128x1_S32x128_d2 : S32x128x1.ReducesTo [2] S32x128
  h_S_ : 0 < S_.numel
  bcast_S32x128_S32x128x768_0_1 : S32x128.BroadcastsInDim S32x128x768 (![0, 1] : Fin 2 → Fin S32x128x768.rank)
  bcast_S_S32x128x768 : S_.BroadcastsInDim S32x128x768 (![] : Fin 0 → Fin S32x128x768.rank)
  shapeCasts_S32x128x1_S32x128 : S32x128x1.ShapeCasts S32x128
  gather_S32x4096x768_S32x128x1_S32x128x768_2_1_0_0_1_2_11768_wf : GatherDims.WF S32x4096x768 S32x128x1 S32x128x768 [2] [1] [0] [1] [0] 2 ![1, 1, 768]
  dot_S32x128x768_S768x1_S32x128x1_2_0_01_1_n_n_wf : DotDims.WF S32x128x768 S768x1 S32x128x1 [2] [0] [0, 1] [1] [] []

variable [Facts₀]

def gather_S32x4096x768_S32x128x1_S32x128x768_2_1_0_0_1_2_11768 : GatherDims S32x4096x768 S32x128x1 S32x128x768 where
  offsetDims := [2]
  collapsedSliceDims := [1]
  operandBatchingDims := [0]
  startIndicesBatchingDims := [0]
  startIndexMap := [1]
  indexVectorDim := 2
  sliceSizes := ![1, 1, 768]
  wf := gather_S32x4096x768_S32x128x1_S32x128x768_2_1_0_0_1_2_11768_wf
def dot_S32x128x768_S768x1_S32x128x1_2_0_01_1_n_n : DotDims S32x128x768 S768x1 S32x128x1 where
  lhsContracting := [2]
  rhsContracting := [0]
  lhsNonContracting := [0, 1]
  rhsNonContracting := [1]
  lhsBatch := []
  rhsBatch := []
  wf := dot_S32x128x768_S768x1_S32x128x1_2_0_01_1_n_n_wf

class Facts : Prop extends Facts₀ where

variable [Facts]
-- ==== Proof.Spec.lean ====
/-
  The mathematics of the certificate, over literal shapes and no program.

  Per batch `b` and position `n` the result is the linear head applied to ONE row of the encoded sequence,
      out[b, n] = (∑ h, enc[b, r, h] · W[h, 0]) + bias[0],     r = idx[b, n].
  The reference reads row `r` by a gather. The kernel has no gather: it multiplies the `[4096, 768]` slab of batch `b`
  from the left by the `[128, 4096]` indicator matrix `E[n, s] = [s = idx[b, n]]`, so that its row is
      ∑ s, E[n, s] · enc[b, s, h].
  When `0 ≤ r < 4096` exactly one column of row `n` of the indicator is one, every other term of the sum is
  `0 · x = 0` (true of every extended real, infinite ones included, so no finiteness is used), and the sum is `enc[b, r, h]`.
-/
import Idealize.ShloMosaic.PureOps.Ideal
import Idealize.ShloMosaic.Lib.ValueIdx
import Idealize.ShloMosaic.Lib.StableHlo.Predicate

noncomputable section

open scoped BigOperators

namespace Cert.ClsHead

open Idealize.ShloMosaic Idealize.ShloMosaic.ValueIdx

/-! ## Selecting one term of a sum by an indicator -/

/-- A sum weighted by the indicator of one index is the term at that index: the other terms are `0 · x = 0` on the
    extended reals, whatever `x` is. -/
theorem sum_indicator_mul {n : Nat} (k : Fin n) (x : Fin n → EReal) :
    ∑ s : Fin n, (if s = k then (1 : EReal) else 0) * x s = x k := by
  rw [Finset.sum_eq_single k]
  · rw [if_pos rfl, one_mul]
  · intro s _ hs
    rw [if_neg hs, zero_mul]
  · intro hk
    exact absurd (Finset.mem_univ k) hk

/-- The indicator as the kernel makes it: the equality bit of two 32-bit words, widened to a word and converted to a
    float, is `1` when the words are equal and `0` when they are not. -/
theorem indicator_word (a b : BitVec 32) :
    FloatOps.sitofp (F := Ideal) .f32 ((IntOp.cmpi .eq a b).setWidth 32) = if a = b then (1 : EReal) else 0 := by
  by_cases hab : a = b
  · rw [if_pos hab, StableHlo.Predicate.cmpi_eq_iff.mpr hab]
    show (((((1#1 : BitVec 1).setWidth 32).toInt : ℤ) : ℝ) : EReal) = 1
    rw [show ((1#1 : BitVec 1).setWidth 32).toInt = 1 from by decide]
    simp
  · rw [if_neg hab, eq_zero_of_ne_one (fun h1 => hab (StableHlo.Predicate.cmpi_eq_iff.mp h1))]
    show (((((0#1 : BitVec 1).setWidth 32).toInt : ℤ) : ℝ) : EReal) = 0
    rw [show ((0#1 : BitVec 1).setWidth 32).toInt = 0 from by decide]
    simp

/-- A position counter `s < 4096` as a 32-bit word equals the word `w` exactly when `w`, read signed, is `s`: for a
    word whose signed reading is in `[0, 4096)` the indicator column is that reading. -/
theorem ofNat_eq_iff_of_range (s : Fin 4096) (w : BitVec 32) (k : Fin 4096) (hk : w.toInt = (k.val : ℤ)) :
    BitVec.ofNat 32 s.val = w ↔ s = k := by
  have hw : w = BitVec.ofNat 32 k.val := by
    have hlt := k.isLt
    have hwlt := w.isLt
    apply BitVec.eq_of_toNat_eq
    rw [BitVec.toNat_ofNat]
    rw [BitVec.toInt_eq_toNat_cond] at hk
    split at hk <;> omega
  rw [hw]
  constructor
  · intro h
    have h2 := congrArg BitVec.toNat h
    rw [BitVec.toNat_ofNat, BitVec.toNat_ofNat] at h2
    have := s.isLt
    have := k.isLt
    apply Fin.ext
    omega
  · intro h
    rw [h]

/-! ## The two sides as functions of the argument arrays -/

/-- The row the reference's gather reads for a start word: the word read signed and clamped into `[0, 4095]`. -/
def rowOf (w : BitVec 32) : Fin 4096 := ⟨min w.toInt.toNat 4095, by omega⟩

/-- On a word whose signed reading is a row number the clamp does nothing. -/
theorem rowOf_eq (w : BitVec 32) (k : Fin 4096) (hk : w.toInt = (k.val : ℤ)) : rowOf w = k := by
  apply Fin.ext
  show min w.toInt.toNat 4095 = k.val
  rw [hk, Int.toNat_natCast]
  have := k.isLt
  omega

/-- THE RESULT, by rows: the linear head of the row the index names. -/
def headOfRow (enc : (⟨3, ![32, 4096, 768]⟩ : Shape).Idx → EReal) (idx : IVec ⟨2, ![32, 128]⟩ 32)
    (W : (⟨2, ![768, 1]⟩ : Shape).Idx → EReal) (bias : (⟨1, ![1]⟩ : Shape).Idx → EReal) :
    (⟨2, ![32, 128]⟩ : Shape).Idx → EReal :=
  fun j => (∑ h : Fin 768, enc (ix3 (j 0) (rowOf (idx j)) h) * W (ix2 h (0 : Fin 1))) + bias (ix1 (0 : Fin 1))

/-- THE KERNEL'S FORM of it: the head of the indicator-weighted sum of all rows. -/
def headOfIndicator (enc : (⟨3, ![32, 4096, 768]⟩ : Shape).Idx → EReal) (idx : IVec ⟨2, ![32, 128]⟩ 32)
    (W : (⟨2, ![768, 1]⟩ : Shape).Idx → EReal) (bias : (⟨1, ![1]⟩ : Shape).Idx → EReal) :
    (⟨2, ![32, 128]⟩ : Shape).Idx → EReal :=
  fun j => (∑ h : Fin 768,
      (∑ s : Fin 4096, (if BitVec.ofNat 32 s.val = idx j then (1 : EReal) else 0) * enc (ix3 (j 0) s h))
        * W (ix2 h (0 : Fin 1))) + bias (ix1 (0 : Fin 1))

/-- Every index word, read signed, is a row number of the sequence axis. -/
def InRange (idx : IVec ⟨2, ![32, 128]⟩ 32) : Prop :=
  ∀ j, 0 ≤ (idx j).toInt ∧ (idx j).toInt < 4096

/-- With every index a row number, the indicator-weighted sum of all rows is the named row, and the two forms agree. -/
theorem headOfIndicator_eq (enc : (⟨3, ![32, 4096, 768]⟩ : Shape).Idx → EReal) (idx : IVec ⟨2, ![32, 128]⟩ 32)
    (W : (⟨2, ![768, 1]⟩ : Shape).Idx → EReal) (bias : (⟨1, ![1]⟩ : Shape).Idx → EReal) (hr : InRange idx) :
    headOfIndicator enc idx W bias = headOfRow enc idx W bias := by
  funext j
  obtain ⟨h0, h1⟩ := hr j
  -- the signed reading as a row number
  have hk : (idx j).toInt = ((⟨(idx j).toInt.toNat, by omega⟩ : Fin 4096).val : ℤ) := by
    show (idx j).toInt = (((idx j).toInt.toNat : ℕ) : ℤ)
    omega
  unfold headOfIndicator headOfRow
  congr 1
  refine Finset.sum_congr rfl fun h _ => ?_
  congr 1
  rw [rowOf_eq (idx j) _ hk]
  have e : ∀ s : Fin 4096, (if BitVec.ofNat 32 s.val = idx j then (1 : EReal) else 0)
      = if s = (⟨(idx j).toInt.toNat, by omega⟩ : Fin 4096) then (1 : EReal) else 0 := fun s => by
    by_cases hs : s = (⟨(idx j).toInt.toNat, by omega⟩ : Fin 4096)
    · rw [if_pos hs, if_pos ((ofNat_eq_iff_of_range s (idx j) _ hk).mpr hs)]
    · rw [if_neg hs, if_neg (fun hh => hs ((ofNat_eq_iff_of_range s (idx j) _ hk).mp hh))]
  simp only [e]
  exact sum_indicator_mul _ (fun s => enc (ix3 (j 0) s h))

end Cert.ClsHead

end
-- ==== Proof.PreRange.lean ====
/-
  What the precondition says of the index array: every entry, read as a signed integer, is a row number of the
  sequence axis, `0 ≤ idx[b, n] < 4096`.

  The precondition is a conjunction of four `all`s; the last is over the `[32, 128]` array of bits
  `(idx ≥ 0) ∧ (idx < 4096)`. A conjunction that is one has both parts one; an `all` that is one met only ones; and a
  signed comparison bit that is one says the comparison of the signed readings.
-/
import proofs.«406566_j74741020885454_1_alg».proof.Pre_finite_inputs
import proofs.«406566_j74741020885454_1_alg».proof.Proof.Spec
import Idealize.ShloMosaic.Lib.ReduceAll
import Idealize.ShloMosaic.Lib.Affine

noncomputable section

namespace Cert.ClsHead

open Idealize.ShloMosaic Idealize.ShloMosaic.ValueIdx

/-- The scalar shape has one index. -/
instance subsingleton_scalar_idx : Subsingleton Cert.Pre_finite_inputs.S_.Idx := ⟨fun _ _ => funext fun d => d.elim0⟩

/-- THE RANGE: under the precondition every index word, read signed, lies in `[0, 4096)`. Holds at every float
    instance: only the integer conjunct is opened. -/
theorem inRange_of_pre {F : FTy → Type} [FloatOps F] [Cert.Pre_finite_inputs.Facts]
    (a0 : FVec F Cert.Pre_finite_inputs.S32x4096x768 .f32) (a1 : IVec Cert.Pre_finite_inputs.S32x128 32)
    (a2 : FVec F Cert.Pre_finite_inputs.S768x1 .f32) (a3 : FVec F Cert.Pre_finite_inputs.S1 .f32)
    (h : Cert.Pre_finite_inputs.fn (F := F) a0 a1 a2 a3 = fun _ => 1#1) : InRange a1 := by
  have h0 := congrFun h ix0
  dsimp only [Cert.Pre_finite_inputs.fn, Cert.Pre_finite_inputs.fn_part1] at h0
  -- the last conjunct: the `all` over the index array's range bits
  have h1 := (IntOp.andi_eq_one.1 h0).2
  intro j
  -- that `all` is one, so the bit at `j` is one
  have h2 := Host.reduce_andi_all _ _ _ _ _ h1 j
  obtain ⟨hge, hlt⟩ := IntOp.andi_eq_one.1 h2
  have hge' : (0#32 : BitVec 32).toInt ≤ (a1 j).toInt := IntOp.cmpi_sge.1 hge
  have hlt' : (a1 j).toInt < (4096#32 : BitVec 32).toInt := IntOp.cmpi_slt.1 hlt
  rw [show (0#32 : BitVec 32).toInt = 0 from by decide] at hge'
  rw [show (4096#32 : BitVec 32).toInt = 4096 from by decide] at hlt'
  exact ⟨hge', hlt'⟩

end Cert.ClsHead

end
-- ==== Proof.KernelPay.lean ====
/-
  What the kernel body stores, read at one position.

  The body builds the `[128, 4096]` indicator matrix `E[n, s] = [s = idx[n]]` of the block's 128 index words (a position
  counter along axis 1 compared with the index word broadcast along it, the comparison bit widened and converted to a
  float), multiplies the batch's `[4096, 768]` slab by it from the left, multiplies the `[128, 768]` product by the
  `[768, 1]` head, and adds the bias to every position. On the extended reals the format changes are the identity and a
  contraction into a zero accumulator is the plain sum, so position `n` of the stored block is
      (∑ h, (∑ s, E[n, s] · slab[s, h]) · W[h, 0]) + bias[0].
-/
import proofs.«406566_j74741020885454_1_alg».proof.Proof.Gen.KernelIdeal.Skeleton
import proofs.«406566_j74741020885454_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The selection product `[128, 4096] × [4096, 768]`: operand indices by coordinates -/

theorem sel_lhs_0 (i : S128x768.Idx) (q : dot_S128x4096_S4096x768_S128x768_1_0_0_1_n_n.contr.Idx) :
    (dot_S128x4096_S4096x768_S128x768_1_0_0_1_n_n.lhsIdx i q 0).val = (i 0).val := by
  unfold DotDims.lhsIdx
  rw [dif_neg (show ¬(0 : Fin S128x4096.rank) ∈ dot_S128x4096_S4096x768_S128x768_1_0_0_1_n_n.lhsBatch by decide), dif_pos (show (0 : Fin S128x4096.rank) ∈ dot_S128x4096_S4096x768_S128x768_1_0_0_1_n_n.lhsNonContracting by decide)]
  rfl
theorem sel_lhs_1 (i : S128x768.Idx) (q : dot_S128x4096_S4096x768_S128x768_1_0_0_1_n_n.contr.Idx) :
    (dot_S128x4096_S4096x768_S128x768_1_0_0_1_n_n.lhsIdx i q 1).val = (q ⟨0, by decide⟩).val :=
  dot_S128x4096_S4096x768_S128x768_1_0_0_1_n_n.lhsIdx_val_of_single rfl i q
theorem sel_rhs_0 (i : S128x768.Idx) (q : dot_S128x4096_S4096x768_S128x768_1_0_0_1_n_n.contr.Idx) :
    (dot_S128x4096_S4096x768_S128x768_1_0_0_1_n_n.rhsIdx i q 0).val = (q ⟨0, by decide⟩).val :=
  dot_S128x4096_S4096x768_S128x768_1_0_0_1_n_n.rhsIdx_val_of_single rfl i q
theorem sel_rhs_1 (i : S128x768.Idx) (q : dot_S128x4096_S4096x768_S128x768_1_0_0_1_n_n.contr.Idx) :
    (dot_S128x4096_S4096x768_S128x768_1_0_0_1_n_n.rhsIdx i q 1).val = (i 1).val := by
  unfold DotDims.rhsIdx
  rw [dif_neg (show ¬(1 : Fin S4096x768.rank) ∈ dot_S128x4096_S4096x768_S128x768_1_0_0_1_n_n.rhsBatch by decide), dif_pos (show (1 : Fin S4096x768.rank) ∈ dot_S128x4096_S4096x768_S128x768_1_0_0_1_n_n.rhsNonContracting by decide)]
  rfl

/-- The selection product into a zero accumulator, at `(n, h)`: the sum over the sequence position `s` of the left
    operand at `(n, s)` times the right at `(s, h)`. -/
theorem sel_matmul_apply {φ₁ φ₂ : FTy} (lhs : FVec Ideal S128x4096 φ₁) (rhs : FVec Ideal S4096x768 φ₂) (n : Fin 128) (h : Fin 768) :
    matmul (F := Ideal) dot_S128x4096_S4096x768_S128x768_1_0_0_1_n_n none lhs rhs (constant S128x768 .f32 0x00000000#32) (ix2 n h)
      = ∑ s : Fin 4096, lhs (ix2 n s) * rhs (ix2 s h) := by
  refine (Ideal.matmul_constant_zero_apply dot_S128x4096_S4096x768_S128x768_1_0_0_1_n_n none lhs rhs (ix2 n h)).trans ?_
  rw [← Equiv.sum_comp (contrEquiv1 dot_S128x4096_S4096x768_S128x768_1_0_0_1_n_n 4096 rfl rfl).symm]
  refine Finset.sum_congr rfl fun k _ => ?_
  have hk := contrEquiv1_symm_val dot_S128x4096_S4096x768_S128x768_1_0_0_1_n_n 4096 rfl rfl k
  have el : dot_S128x4096_S4096x768_S128x768_1_0_0_1_n_n.lhsIdx (ix2 n h) ((contrEquiv1 dot_S128x4096_S4096x768_S128x768_1_0_0_1_n_n 4096 rfl rfl).symm k) = ix2 n k := funext fun a => Fin.ext (by
    match a with
    | ⟨0, _⟩ => exact sel_lhs_0 _ _
    | ⟨1, _⟩ => exact (sel_lhs_1 _ _).trans hk)
  have er : dot_S128x4096_S4096x768_S128x768_1_0_0_1_n_n.rhsIdx (ix2 n h) ((contrEquiv1 dot_S128x4096_S4096x768_S128x768_1_0_0_1_n_n 4096 rfl rfl).symm k) = ix2 k h := funext fun a => Fin.ext (by
    match a with
    | ⟨0, _⟩ => exact (sel_rhs_0 _ _).trans hk
    | ⟨1, _⟩ => exact sel_rhs_1 _ _)
  rw [el, er]

/-! ## The head product `[128, 768] × [768, 1]` -/

theorem head_lhs_0 (i : S128x1.Idx) (q : dot_S128x768_S768x1_S128x1_1_0_0_1_n_n.contr.Idx) :
    (dot_S128x768_S768x1_S128x1_1_0_0_1_n_n.lhsIdx i q 0).val = (i 0).val := by
  unfold DotDims.lhsIdx
  rw [dif_neg (show ¬(0 : Fin S128x768.rank) ∈ dot_S128x768_S768x1_S128x1_1_0_0_1_n_n.lhsBatch by decide), dif_pos (show (0 : Fin S128x768.rank) ∈ dot_S128x768_S768x1_S128x1_1_0_0_1_n_n.lhsNonContracting by decide)]
  rfl
theorem head_lhs_1 (i : S128x1.Idx) (q : dot_S128x768_S768x1_S128x1_1_0_0_1_n_n.contr.Idx) :
    (dot_S128x768_S768x1_S128x1_1_0_0_1_n_n.lhsIdx i q 1).val = (q ⟨0, by decide⟩).val :=
  dot_S128x768_S768x1_S128x1_1_0_0_1_n_n.lhsIdx_val_of_single rfl i q
theorem head_rhs_0 (i : S128x1.Idx) (q : dot_S128x768_S768x1_S128x1_1_0_0_1_n_n.contr.Idx) :
    (dot_S128x768_S768x1_S128x1_1_0_0_1_n_n.rhsIdx i q 0).val = (q ⟨0, by decide⟩).val :=
  dot_S128x768_S768x1_S128x1_1_0_0_1_n_n.rhsIdx_val_of_single rfl i q
theorem head_rhs_1 (i : S128x1.Idx) (q : dot_S128x768_S768x1_S128x1_1_0_0_1_n_n.contr.Idx) :
    (dot_S128x768_S768x1_S128x1_1_0_0_1_n_n.rhsIdx i q 1).val = (i 1).val := by
  unfold DotDims.rhsIdx
  rw [dif_neg (show ¬(1 : Fin S768x1.rank) ∈ dot_S128x768_S768x1_S128x1_1_0_0_1_n_n.rhsBatch by decide), dif_pos (show (1 : Fin S768x1.rank) ∈ dot_S128x768_S768x1_S128x1_1_0_0_1_n_n.rhsNonContracting by decide)]
  rfl

/-- The head product into a zero accumulator, at `(n, 0)`: the sum over the hidden coordinate `h` of the left operand
    at `(n, h)` times the head at `(h, 0)`. -/
theorem head_matmul_apply {φ₁ φ₂ : FTy} (prec : Option ContractPrecision) (lhs : FVec Ideal S128x768 φ₁) (rhs : FVec Ideal S768x1 φ₂) (n : Fin 128) :
    matmul (F := Ideal) dot_S128x768_S768x1_S128x1_1_0_0_1_n_n prec lhs rhs (constant S128x1 .f32 0x00000000#32) (ix2 n (0 : Fin 1))
      = ∑ h : Fin 768, lhs (ix2 n h) * rhs (ix2 h (0 : Fin 1)) := by
  refine (Ideal.matmul_constant_zero_apply dot_S128x768_S768x1_S128x1_1_0_0_1_n_n prec lhs rhs (ix2 n (0 : Fin 1))).trans ?_
  rw [← Equiv.sum_comp (contrEquiv1 dot_S128x768_S768x1_S128x1_1_0_0_1_n_n 768 rfl rfl).symm]
  refine Finset.sum_congr rfl fun k _ => ?_
  have hk := contrEquiv1_symm_val dot_S128x768_S768x1_S128x1_1_0_0_1_n_n 768 rfl rfl k
  have el : dot_S128x768_S768x1_S128x1_1_0_0_1_n_n.lhsIdx (ix2 n (0 : Fin 1)) ((contrEquiv1 dot_S128x768_S768x1_S128x1_1_0_0_1_n_n 768 rfl rfl).symm k) = ix2 n k := funext fun a => Fin.ext (by
    match a with
    | ⟨0, _⟩ => exact head_lhs_0 _ _
    | ⟨1, _⟩ => exact (head_lhs_1 _ _).trans hk)
  have er : dot_S128x768_S768x1_S128x1_1_0_0_1_n_n.rhsIdx (ix2 n (0 : Fin 1)) ((contrEquiv1 dot_S128x768_S768x1_S128x1_1_0_0_1_n_n 768 rfl rfl).symm k) = ix2 k (0 : Fin 1) := funext fun a => Fin.ext (by
    match a with
    | ⟨0, _⟩ => exact (head_rhs_0 _ _).trans hk
    | ⟨1, _⟩ => exact head_rhs_1 _ _)
  rw [el, er]

/-! ## The layout steps, each at an index -/

/-- The index block `[1, 1, 128]` viewed `[128]`, set up as a column `[128, 1]` and broadcast along the sequence axis:
    entry `(n, s)` is the block's word at position `n`. -/
theorem idxrow_apply (x0 : IVec S1x1x128 32) (n : Fin 128) (s : Fin 4096) :
    broadcastTo S128x4096 (shapeCast S128x1 (shapeCast S128 (shapeCast S1x1x128 x0 shapeCasts_S1x1x128_S1x1x128) shapeCasts_S1x1x128_S128) shapeCasts_S128_S128x1) broadcasts_S128x1_S128x4096 (ix2 n s)
      = x0 (ix3 (0 : Fin 1) (0 : Fin 1) n) := by
  rw [shapeCast_self]
  refine (broadcastTo_apply _ broadcasts_S128x1_S128x4096 (ix2 n s) (ix2 n (0 : Fin 1)) (fun a => by
    match a with
    | ⟨0, _⟩ => show n.val = if (128 : Nat) = 1 then 0 else n.val; rw [if_neg (by decide)]
    | ⟨1, _⟩ => show 0 = if (1 : Nat) = 1 then 0 else s.val; rw [if_pos rfl])).trans ?_
  refine (shapeCast_apply _ shapeCasts_S128_S128x1 (ix2 n (0 : Fin 1)) (ix1 n) (by
    rw [Shape.rowMajor_val_one, Shape.rowMajor_val_two]; show n.val = n.val * 1 + 0; omega)).trans ?_
  exact shapeCast_apply _ shapeCasts_S1x1x128_S128 (ix1 n) (ix3 (0 : Fin 1) (0 : Fin 1) n) (by
    rw [Shape.rowMajor_val_three, Shape.rowMajor_val_one]; show (0 * 1 + 0) * 128 + n.val = n.val; omega)

/-- The slab block `[1, 4096, 768]` viewed `[4096, 768]`: entry `(s, h)` is the block's at `(0, s, h)`. -/
theorem slab_apply {α : Type} (x1 : S1x4096x768.Idx → α) (s : Fin 4096) (h : Fin 768) :
    shapeCast S4096x768 x1 shapeCasts_S1x4096x768_S4096x768 (ix2 s h) = x1 (ix3 (0 : Fin 1) s h) :=
  shapeCast_apply _ shapeCasts_S1x4096x768_S4096x768 (ix2 s h) (ix3 (0 : Fin 1) s h) (by
    rw [Shape.rowMajor_val_three, Shape.rowMajor_val_two]; show (0 * 4096 + s.val) * 768 + h.val = s.val * 768 + h.val; omega)

/-! ## The stored block at a position -/

/-- THE PAYLOAD AT POSITION `n`: the head of the indicator-weighted sum of the slab's rows, plus the bias. -/
theorem pay_apply (x0 : Vec Ideal S1x1x128 .i32) (x1 : Vec Ideal S1x4096x768 .f32) (x2 : Vec Ideal S768x1 .f32)
    (x3 : Vec Ideal S1 .f32) (n : Fin 128) :
    k0_pay1 (F := Ideal) x0 x1 x2 x3 (ix3 (0 : Fin 1) (0 : Fin 1) n)
      = (∑ h : Fin 768,
          (∑ s : Fin 4096, (if BitVec.ofNat 32 s.val = x0 (ix3 (0 : Fin 1) (0 : Fin 1) n) then (1 : EReal) else 0)
              * x1 (ix3 (0 : Fin 1) s h))
            * x2 (ix2 h (0 : Fin 1)))
        + x3 (ix1 (0 : Fin 1)) := by
  unfold k0_pay1
  -- the stored `[1, 1, 128]` block is the `[128]` vector of logits
  refine (shapeCast_apply _ shapeCasts_S128_S1x1x128 (ix3 (0 : Fin 1) (0 : Fin 1) n) (ix1 n) (by
    rw [Shape.rowMajor_val_three, Shape.rowMajor_val_one]; show n.val = (0 * 1 + 0) * 128 + n.val; omega)).trans ?_
  rw [addf_apply, broadcast_apply]
  congr 1
  · -- the `[128]` vector is the `[128, 1]` head product's column
    refine (shapeCast_apply _ shapeCasts_S128x1_S128 (ix1 n) (ix2 n (0 : Fin 1)) (by
      rw [Shape.rowMajor_val_one, Shape.rowMajor_val_two]; show n.val * 1 + 0 = n.val; omega)).trans ?_
    rw [head_matmul_apply]
    refine Finset.sum_congr rfl fun h _ => ?_
    congr 1
    rw [sel_matmul_apply]
    refine Finset.sum_congr rfl fun s _ => ?_
    rw [truncf_apply, truncf_apply, sitofp_apply, extui_apply, slab_apply]
    congr 1
    -- the indicator entry: the position counter against the broadcast index word
    show FloatOps.sitofp (F := Ideal) .f32 ((IntOp.cmpi .eq (iota .tc S128x4096 32 [1] iota_S128x4096_d1_w32 (ix2 n s)) _).setWidth 32) = _
    rw [iota_single_apply, idxrow_apply]
    exact Cert.ClsHead.indicator_word _ _
  · -- the bias: the one entry of the `[1]` block
    exact congrArg x3 (funext fun a => by match a with | ⟨0, _⟩ => rfl)

/-- The same at any index of the `[1, 1, 128]` block: its two leading coordinates are `0`. -/
theorem pay_block (x0 : Vec Ideal S1x1x128 .i32) (x1 : Vec Ideal S1x4096x768 .f32) (x2 : Vec Ideal S768x1 .f32)
    (x3 : Vec Ideal S1 .f32) (j : S1x1x128.Idx) :
    k0_pay1 (F := Ideal) x0 x1 x2 x3 j
      = (∑ h : Fin 768,
          (∑ s : Fin 4096, (if BitVec.ofNat 32 s.val = x0 (ix3 (0 : Fin 1) (0 : Fin 1) (j 2)) then (1 : EReal) else 0)
              * x1 (ix3 (0 : Fin 1) s h))
            * x2 (ix2 h (0 : Fin 1)))
        + x3 (ix1 (0 : Fin 1)) := by
  obtain ⟨a, b, n, rfl⟩ : ∃ (a : Fin 1) (b : Fin 1) (n : Fin 128), j = ix3 a b n := ⟨j 0, j 1, j 2, eq_ix3 j⟩
  obtain rfl : a = 0 := Subsingleton.elim _ _
  obtain rfl : b = 0 := Subsingleton.elim _ _
  exact pay_apply x0 x1 x2 x3 n

end Cert.KernelIdeal.PayValue

end
-- ==== Proof.KernelValue.lean ====
/-
  The kernel's result array, as one function of the argument arrays.

  Grid point `t` (one per batch) is given row `t` of the index array (set up `[32, 1, 128]` before the call), the whole
  `[4096, 768]` slab of batch `t`, the head and the bias, and writes back the `[1, 1, 128]` block of logits of batch `t`.
  The 32 blocks tile the `[32, 1, 128]` result of the call, which the program then views as `[32, 128]`. Entry `(b, n)`
  of that is the head of the indicator-weighted sum of batch `b`'s rows, plus the bias: the kernel's form of the
  specification.
-/
import proofs.«406566_j74741020885454_1_alg».proof.Proof.Gen.KernelIdeal.Frame
import proofs.«406566_j74741020885454_1_alg».proof.Proof.KernelPay
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen
open Cert.ClsHead (headOfIndicator)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A grid point as a batch number. -/
def batchOf (t : Fin cfg0.N) : Fin 32 := t.cast N_0

/-- The printed index maps, decided over the 32 points: the index row, the slab and the result block move with the
    point along axis 0 and stay at 0 elsewhere; the head and the bias stay put. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-! ## The arrays as the region finds them -/

/-- The index array viewed `[32, 1, 128]` before the call. -/
theorem V_main_v0 (c : Dev nD) :
    (V m c main_v0 : S32x1x128.Idx → BitVec 32)
      = shapeCast S32x1x128 (m ((c.tc : Thread nD τ).loc main_arg1) : S32x128.Idx → BitVec 32) shapeCasts_S32x128_S32x1x128 := by
  show StableHlo.after hostOps0 (fun b => m (c, b)) (Proc.devRef .tc main_v0) = _
  after_results
  rfl

/-! ## Each input block as entries of the argument arrays -/

/-- The index block at point `t`: row `t` of the index array. -/
theorem iblk0_apply (c : Dev nD) (t : Fin cfg0.N) (n : Fin 128) :
    (iblk m c 0 t : Vec Ideal S1x1x128 .i32) (ix3 (0 : Fin 1) (0 : Fin 1) n)
      = (m ((c.tc : Thread nD τ).loc main_arg1) : S32x128.Idx → BitVec 32) (ix2 (batchOf t) n) := by
  obtain ⟨e0, e1, e2, -⟩ := idx_facts t
  unfold iblk
  rw [View.read_apply]
  show V m c main_v0 _ = _
  rw [V_main_v0]
  refine shapeCast_apply _ shapeCasts_S32x128_S32x1x128 _ (ix2 (batchOf t) n) ?_
  rw [Shape.rowMajor_val_two, Shape.rowMajor_val_three]
  show t.val * 128 + n.val = ((win0_0.index t (0 : Fin 3) * 1 + 1 * 0) * 1 + (win0_0.index t (1 : Fin 3) * 1 + 1 * 0)) * 128 + (win0_0.index t (2 : Fin 3) * 128 + 1 * n.val)
  rw [e0, e1, e2]
  omega

/-- The slab block at point `t`: batch `t` of the encoded sequence. -/
theorem iblk1_apply (c : Dev nD) (t : Fin cfg0.N) (s : Fin 4096) (h : Fin 768) :
    (iblk m c 1 t : Vec Ideal S1x4096x768 .f32) (ix3 (0 : Fin 1) s h)
      = (m ((c.tc : Thread nD τ).loc main_arg0) : S32x4096x768.Idx → EReal) (ix3 (batchOf t) s h) := by
  obtain ⟨-, -, -, e0, e1, e2, -⟩ := idx_facts t
  unfold iblk
  rw [View.read_apply]
  show V m c main_arg0 _ = _
  rw [V_main_arg0]
  congr 1
  funext a
  apply Fin.ext
  match a with
  | ⟨0, _⟩ => show win0_1.index t (0 : Fin 3) * 1 + 1 * 0 = t.val; rw [e0]; omega
  | ⟨1, _⟩ => show win0_1.index t (1 : Fin 3) * 4096 + 1 * s.val = s.val; rw [e1]; omega
  | ⟨2, _⟩ => show win0_1.index t (2 : Fin 3) * 768 + 1 * h.val = h.val; rw [e2]; omega

/-- The head block at every point: the whole head. -/
theorem iblk2_apply (c : Dev nD) (t : Fin cfg0.N) (h : Fin 768) :
    (iblk m c 2 t : Vec Ideal S768x1 .f32) (ix2 h (0 : Fin 1))
      = (m ((c.tc : Thread nD τ).loc main_arg2) : S768x1.Idx → EReal) (ix2 h (0 : Fin 1)) := by
  obtain ⟨-, -, -, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 768 + 1 * h.val = h.val; rw [e0]; omega
  | ⟨1, _⟩ => show win0_2.index t (1 : Fin 2) * 1 + 1 * 0 = 0; rw [e1]

/-- The bias block at every point: the bias. -/
theorem iblk3_apply (c : Dev nD) (t : Fin cfg0.N) :
    (iblk m c 3 t : Vec Ideal S1 .f32) (ix1 (0 : Fin 1))
      = (m ((c.tc : Thread nD τ).loc main_arg3) : S1.Idx → EReal) (ix1 (0 : Fin 1)) := by
  obtain ⟨-, -, -, -, -, -, -, -, e0, -⟩ := idx_facts t
  unfold iblk
  rw [View.read_apply]
  show V m c main_arg3 _ = _
  rw [V_main_arg3]
  congr 1
  funext a
  apply Fin.ext
  match a with
  | ⟨0, _⟩ => show win0_3.index t (0 : Fin 1) * 1 + 1 * 0 = 0; rw [e0]

/-! ## The call's result array -/

/-- The `[32, 1, 128]` result of the call as one function of the arguments: entry `(b, 0, n)` is the kernel's form of the
    specification at `(b, n)`. -/
def callResult (c : Dev nD) : S32x1x128.Idx → EReal := fun i =>
  headOfIndicator (m ((c.tc : Thread nD τ).loc main_arg0)) (m ((c.tc : Thread nD τ).loc main_arg1)) (m ((c.tc : Thread nD τ).loc main_arg2)) (m ((c.tc : Thread nD τ).loc main_arg3)) (ix2 (i 0) (i 2))

/-- WHAT POINT `t` WRITES BACK is block `t` of `callResult`. -/
theorem flushed_eq (c : Dev nD) (t : Fin cfg0.N) :
    (dats m 0 c).flushed 4 t = ((cfg0.win 4).blk t).view.read (Elt Ideal) (callResult m c) := by
  obtain ⟨-, -, -, -, -, -, -, -, -, e0, e1, e2⟩ := idx_facts t
  show (cfg0.win 4).cut (grid0.coords t) ((dats m 0 c).after 4 t) = _
  rw [after0_4]
  unfold out0_4
  rw [View.canon_unit_zero hz3]
  simp only [View.ld_unit_zero (S := S1x1x128) hz3, View.ld_unit_zero (S := S1x4096x768) hz3,
    View.ld_unit_zero (S := S768x1) hz2, View.ld_unit_zero (S := S1) hz1]
  funext j
  refine (PayValue.pay_block (iblk m c 0 t) (iblk m c 1 t) (iblk m c 2 t) (iblk m c 3 t) j).trans ?_
  rw [View.read_apply]
  unfold callResult headOfIndicator
  have hb : (((cfg0.win 4).blk t).view.emb j) 0 = batchOf t := Fin.ext (by
    show win0_4.index t (0 : Fin 3) * 1 + 1 * (j 0).val = t.val
    have : (j 0).val < 1 := (j 0).isLt
    rw [e0]; omega)
  have hn : (((cfg0.win 4).blk t).view.emb j) 2 = j 2 := Fin.ext (by
    show win0_4.index t (2 : Fin 3) * 128 + 1 * (j 2).val = (j 2).val
    rw [e2]; omega)
  rw [hb, hn, iblk0_apply m c t (j 2), iblk3_apply m c t]
  congr 1
  refine Finset.sum_congr rfl fun h _ => ?_
  rw [iblk2_apply m c t h]
  congr 1
  refine Finset.sum_congr rfl fun s _ => ?_
  rw [iblk1_apply m c t s h]

/-- An index of the call's result is in point `t`'s block iff each coordinate is in the block's range on its axis. -/
theorem mem_blk (t : Fin cfg0.N) (i : S32x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v1).slice (win0_4.rect t)).set ↔ _
  rw [View.set_slice_whole, Rect.mem_set_unit]
  exact Iff.rfl

/-- THE ARRAY after the run: the 32 blocks tile it (entry `(b, 0, n)` is in point `b`'s block). -/
theorem final (c : Dev nD) : (dats m 0 c).arrAt 4 cfg0.N = callResult m c :=
  (dats m 0 c).arrAt_eq_of_cover 4 (callResult m c) (fun t _ => flushed_eq m c t) fun i => by
    have hi0 : (i 0).val < 32 := (i 0).isLt
    have hi1 : (i 1).val < 1 := (i 1).isLt
    have hi2 : (i 2).val < 128 := (i 2).isLt
    refine ⟨(i 0).cast N_0.symm, flush0_4 _, ?_⟩
    obtain ⟨-, -, -, -, -, -, -, -, -, e0, e1, e2⟩ := idx_facts ((i 0).cast N_0.symm)
    rw [mem_blk]
    intro a
    match a with
    | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
    | ⟨1, _⟩ => show win0_4.index _ (1 : Fin 3) * 1 ≤ (i 1).val ∧ (i 1).val < win0_4.index _ (1 : Fin 3) * 1 + 1; rw [e1]; omega
    | ⟨2, _⟩ => show win0_4.index _ (2 : Fin 3) * 128 ≤ (i 2).val ∧ (i 2).val < win0_4.index _ (2 : Fin 3) * 128 + 128; rw [e2]; omega

/-! ## The program's result: the call's result viewed `[32, 128]` -/

/-- After the call the program views its `[32, 1, 128]` result as `[32, 128]`: the kernel's form of the specification. -/
theorem tail_eq (c : Dev nD) :
    Pipeline.afterTail₀ cfgs (dats m) 0 (V0 m) [hostOps1] c main_v2 = headOfIndicator (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v2) = _
  after_results
  rw [show (Pipeline.withArrays (cfgs 0).spec c (V0 m c) (fun w => (dats m 0 c).arrAt w (cfgs 0).N) (Proc.devRef .tc main_v1))
      = callResult m c from (Pipeline.withArrays_arr spec0 launch0.win.arr_inj c _ _ 4).trans (final m c)]
  funext i
  obtain ⟨b, n, rfl⟩ : ∃ (b : Fin 32) (n : Fin 128), i = ix2 b n := ⟨i 0, i 1, eq_ix2 i⟩
  refine (shapeCast_apply _ shapeCasts_S32x1x128_S32x128 (ix2 b n) (ix3 b (0 : Fin 1) n) (by
    rw [Shape.rowMajor_val_three, Shape.rowMajor_val_two]; show (b.val * 1 + 0) * 128 + n.val = b.val * 128 + n.val; omega)).trans ?_
  rfl

/-! ## The run, read -/

/-- The frame run re-posted: the result array at the kernel's form of the specification, the arguments unchanged. -/
theorem run : θ_run defs (onTc (τ := τ) (main (F := Ideal))) ⟨m, fun _ => 0, ρ⟩ fun r => ∀ c : Dev nD,
      r.2.mem ((c.tc : Thread nD τ).loc main_v2) = headOfIndicator (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Hand

end
-- ==== Proof.LibBatchRowGather.lean ====
/-
  A batched gather of whole rows, read at a result index.

  Taking `x[b, idx[b, n], :]` from an array `x : [B, S, H]` at positions `idx : [B, N]` prints as a gather over the
  positions as `[B, N, 1]`: the operand's axis 1 collapsed and start-indexed, its axis 0 a batching axis paired with the
  start indices' axis 0, the offset axis 2 carrying the whole last axis (slice sizes `[1, 1, H]`), the index vector on
  axis 2. Result element `(b, n, h)` is the operand at `(b, r, h)`, where `r` is the start `idx[b, n, 0]` read signed
  and clamped into `[0, S − 1]`: the batching axis takes its coordinate from the result's batch coordinate `b`, the
  offset axis from the result's last coordinate `h`, and only the middle axis from the start index.
-/
import Idealize.ShloMosaic.Lib.ValueIdx

noncomputable section

namespace Idealize.ShloMosaic.LibBatchRowGather

open Idealize.ShloMosaic Idealize.ShloMosaic.ValueIdx

/-- THE READ: element `(b, n, h)` of the gather is the operand at `(b, r, h)`, `r` the start `idx[b, n, 0]` read signed
    and clamped into `[0, S − 1]`. -/
theorem batchRowGather_apply {α : Type} {B S H N w : Nat}
    (d : GatherDims ⟨3, ![B, S, H]⟩ ⟨3, ![B, N, 1]⟩ ⟨3, ![B, N, H]⟩)
    (hoff : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, S, H]⟩ : Shape).Idx → α) (idx : IVec ⟨3, ![B, N, 1]⟩ w) (b : Fin B) (n : Fin N) (h : Fin H)
    (hS : 0 < S) :
    Host.gather d x idx (ix3 b n h)
      = x (ix3 b (⟨min (idx (ix3 b n (0 : Fin 1))).toInt.toNat (S - 1), by omega⟩ : Fin S) h) := by
  -- with the six lists known, the dimension numbers are a literal record but for the slice sizes
  obtain ⟨od, cd, ob, sb, sm, iv, ss, wf⟩ := d
  dsimp only at hoff hcoll hob hsb hsim hivd
  subst hoff hcoll hob hsb hsim hivd
  unfold Host.gather
  congr 1
  funext a
  refine Fin.ext ?_
  simp only [GatherDims.operandIdx]
  match a with
  | ⟨0, _⟩ =>
    -- the batching axis: no start, no offset; the coordinate is the result's on the paired batch axis, `b`
    rw [GatherDims.start_batching _ _ _ _ List.mem_cons_self,
      GatherDims.offCoord_eq_zero _ _ _ (fun hm => ((GatherDims.mem_sKept _ _).mp hm).2 List.mem_cons_self),
      Nat.zero_add, Nat.add_zero]
    rfl
  | ⟨1, _⟩ =>
    -- the collapsed axis: the start is the entry `(b, n, 0)`, read signed, clamped to `S − 1` (the slice is one wide)
    have hsl : ss 1 = 1 :=
      GatherDims.slice_collapsed ⟨[2], [1], [0], [0], [1], 2, ss, wf⟩ 1 List.mem_cons_self
    have hnb : (1 : Fin 3) ∉ ([0] : List (Fin 3)) := by decide
    rw [GatherDims.batchCoord_eq_zero _ _ _ hnb,
      GatherDims.offCoord_eq_zero _ _ _ (fun hm => ((GatherDims.mem_sKept _ _).mp hm).1 List.mem_cons_self)]
    simp only [Nat.add_zero]
    unfold GatherDims.start
    rw [dif_pos (by exact List.mem_cons_self)]
    show min (idx _).toInt.toNat (S - ss 1) = min (idx (ix3 b n (0 : Fin 1))).toInt.toNat (S - 1)
    rw [hsl]
    congr 3
    congr 1
    funext c
    refine Fin.ext ?_
    match c with
    | ⟨0, _⟩ => rfl
    | ⟨1, _⟩ => rfl
    | ⟨2, _⟩ => rfl
  | ⟨2, _⟩ =>
    -- the offset axis: not start-indexed, not batching; the coordinate is the result's on the offset axis, `h`
    have hns : (2 : Fin 3) ∉ ([1] : List (Fin 3)) := by decide
    have hnb : (2 : Fin 3) ∉ ([0] : List (Fin 3)) := by decide
    rw [GatherDims.batchCoord_eq_zero _ _ _ hnb]
    unfold GatherDims.start
    rw [dif_neg (by exact hns)]
    simp only [Nat.add_zero, Nat.zero_add]
    unfold GatherDims.offCoord
    split
    · rfl
    · rename_i hno
      exact absurd ((GatherDims.mem_sKept _ _).mpr ⟨hns, hnb⟩) hno

/-- THE READ IN RANGE: when the start `idx[b, n, 0]`, read signed, is a row `k` of the operand, the clamp is the
    identity and element `(b, n, h)` of the gather is the operand at `(b, k, h)`. -/
theorem batchRowGather_apply_of_lt {α : Type} {B S H N w : Nat}
    (d : GatherDims ⟨3, ![B, S, H]⟩ ⟨3, ![B, N, 1]⟩ ⟨3, ![B, N, H]⟩)
    (hoff : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, S, H]⟩ : Shape).Idx → α) (idx : IVec ⟨3, ![B, N, 1]⟩ w) (b : Fin B) (n : Fin N) (h : Fin H)
    (k : Fin S) (hk : (idx (ix3 b n (0 : Fin 1))).toInt = (k.val : ℤ)) :
    Host.gather d x idx (ix3 b n h) = x (ix3 b k h) := by
  have hS : 0 < S := Nat.lt_of_le_of_lt (Nat.zero_le _) k.isLt
  rw [batchRowGather_apply d hoff hcoll hob hsb hsim hivd x idx b n h hS]
  have e : (⟨min (idx (ix3 b n (0 : Fin 1))).toInt.toNat (S - 1), by omega⟩ : Fin S) = k := by
    apply Fin.ext
    show min (idx (ix3 b n (0 : Fin 1))).toInt.toNat (S - 1) = k.val
    rw [hk, Int.toNat_natCast]
    have := k.isLt
    omega
  rw [e]

end Idealize.ShloMosaic.LibBatchRowGather

end
-- ==== Proof.LibGatherLast.lean ====
/-
  A gather of one element per row along the last axis, read at a result index. Taking `x[b, m, idx[b, m]]` from an
  array `x : [B, M, C]` prints as a gather whose start indices are the `[B, M, 1, 1]` array of positions, the operand's
  last axis collapsed and start-indexed, its two leading axes batching axes paired with the start indices' two leading
  axes, no offset axes, the index vector on axis 3. Result position `(b, m, 0)` is the operand at `(b, m, c)` where `c`
  is `idx[b, m, 0, 0]` read signed and clamped into `[0, C − 1]`: the two batching axes take their coordinate from the
  result's batch coordinates, not from the start index.

  Also: an and-reduction of all ones is one, and a maximum-reduction of real operands over a non-empty fibre is real.
-/
import Idealize.ShloMosaic.PureOps
import Idealize.ShloMosaic.PureOps.Reduce
import Idealize.ShloMosaic.PureOps.Ideal
import Idealize.ShloMosaic.Lib.ValueIdx
import Idealize.ShloMosaic.Lib.Affine
import Mathlib.Data.EReal.Basic
import Mathlib.Order.Lattice

noncomputable section

namespace Idealize.ShloMosaic.LibGatherLast

open Idealize.ShloMosaic Idealize.ShloMosaic.ValueIdx

/-! ## The read of one element per row along the last axis -/

/-- THE READ: position `(b, m, 0)` of the gather is the operand at `(b, m, c)`, `c` the start `idx[b, m, 0, 0]` read
    signed and clamped into `[0, C − 1]`. The two batching axes carry the result's coordinates `b` and `m`. -/
theorem gather_last_apply {α : Type} {B M C w : Nat} (d : GatherDims ⟨3, ![B, M, C]⟩ ⟨4, ![B, M, 1, 1]⟩ ⟨3, ![B, M, 1]⟩)
    (hoff : d.offsetDims = []) (hcoll : d.collapsedSliceDims = [2]) (hob : d.operandBatchingDims = [0, 1])
    (hsb : d.startIndicesBatchingDims = [0, 1]) (hsim : d.startIndexMap = [2]) (hivd : d.indexVectorDim = 3)
    (x : (⟨3, ![B, M, C]⟩ : Shape).Idx → α) (idx : IVec ⟨4, ![B, M, 1, 1]⟩ w) (b : Fin B) (m : Fin M) (hC : 0 < C) :
    Host.gather d x idx (ix3 b m (0 : Fin 1))
      = x (ix3 b m (⟨min (idx (ix4 b m (0 : Fin 1) (0 : Fin 1))).toInt.toNat (C - 1), by omega⟩ : Fin C)) := by
  -- with the six lists known, the dimension numbers are a literal record but for the slice sizes
  obtain ⟨od, cd, ob, sb, sm, iv, ss, wf⟩ := d
  dsimp only at hoff hcoll hob hsb hsim hivd
  subst hoff hcoll hob hsb hsim hivd
  unfold Host.gather
  congr 1
  funext a
  refine Fin.ext ?_
  simp only [GatherDims.operandIdx]
  match a with
  | ⟨0, _⟩ =>
    -- a batching axis: no start, no offset; the coordinate is the result's on the paired batch axis, `b`
    rw [GatherDims.start_batching _ _ _ _ List.mem_cons_self,
      GatherDims.offCoord_eq_zero _ _ _ (fun h => ((GatherDims.mem_sKept _ _).mp h).2 List.mem_cons_self),
      Nat.zero_add, Nat.add_zero]
    rfl
  | ⟨1, _⟩ =>
    -- the second batching axis: the coordinate is `m`
    rw [GatherDims.start_batching _ _ _ _ (List.mem_cons_of_mem _ List.mem_cons_self),
      GatherDims.offCoord_eq_zero _ _ _
        (fun h => ((GatherDims.mem_sKept _ _).mp h).2 (List.mem_cons_of_mem _ List.mem_cons_self)),
      Nat.zero_add, Nat.add_zero]
    rfl
  | ⟨2, _⟩ =>
    -- the collapsed axis: the start is the entry `(b, m, 0, 0)`, read signed, clamped to `C − 1` (the slice is one wide)
    have hsl : ss 2 = 1 :=
      GatherDims.slice_collapsed ⟨[], [2], [0, 1], [0, 1], [2], 3, ss, wf⟩ 2 List.mem_cons_self
    have hnb : (2 : Fin 3) ∉ ([0, 1] : List (Fin 3)) := by decide
    rw [GatherDims.batchCoord_eq_zero _ _ _ hnb,
      GatherDims.offCoord_eq_zero _ _ _ (fun h => ((GatherDims.mem_sKept _ _).mp h).1 List.mem_cons_self)]
    simp only [Nat.add_zero]
    unfold GatherDims.start
    rw [dif_pos (by exact List.mem_cons_self)]
    show min (idx _).toInt.toNat (C - ss 2) = min (idx (ix4 b m (0 : Fin 1) (0 : Fin 1))).toInt.toNat (C - 1)
    rw [hsl]
    congr 3
    congr 1
    funext c
    refine Fin.ext ?_
    match c with
    | ⟨0, _⟩ => rfl
    | ⟨1, _⟩ => rfl
    | ⟨2, _⟩ => rfl
    | ⟨3, _⟩ => rfl

/-- THE READ IN RANGE: when the start `idx[b, m, 0, 0]`, read signed, is a column `k` of the operand, the clamp is the
    identity and position `(b, m, 0)` of the gather is the operand at `(b, m, k)`. -/
theorem gather_last_apply_of_lt {α : Type} {B M C w : Nat}
    (d : GatherDims ⟨3, ![B, M, C]⟩ ⟨4, ![B, M, 1, 1]⟩ ⟨3, ![B, M, 1]⟩)
    (hoff : d.offsetDims = []) (hcoll : d.collapsedSliceDims = [2]) (hob : d.operandBatchingDims = [0, 1])
    (hsb : d.startIndicesBatchingDims = [0, 1]) (hsim : d.startIndexMap = [2]) (hivd : d.indexVectorDim = 3)
    (x : (⟨3, ![B, M, C]⟩ : Shape).Idx → α) (idx : IVec ⟨4, ![B, M, 1, 1]⟩ w) (b : Fin B) (m : Fin M) (k : Fin C)
    (hk : (idx (ix4 b m (0 : Fin 1) (0 : Fin 1))).toInt = (k.val : ℤ)) :
    Host.gather d x idx (ix3 b m (0 : Fin 1)) = x (ix3 b m k) := by
  have hC : 0 < C := Nat.lt_of_le_of_lt (Nat.zero_le _) k.isLt
  rw [gather_last_apply d hoff hcoll hob hsb hsim hivd x idx b m hC]
  have e : (⟨min (idx (ix4 b m (0 : Fin 1) (0 : Fin 1))).toInt.toNat (C - 1), by omega⟩ : Fin C) = k := by
    apply Fin.ext
    show min (idx (ix4 b m (0 : Fin 1) (0 : Fin 1))).toInt.toNat (C - 1) = k.val
    rw [hk, Int.toNat_natCast]
    have := k.isLt
    omega
  rw [e]

/-! ## An and-reduction of all ones is one -/

/-- A left fold by `and` over `i1` words that starts at 1 and meets only 1s comes out 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, IntOp.andi_eq_one.2 ⟨rfl, hf a⟩]
    exact foldl_andi_one f hf l

/-- A reduction by `and` of an `i1` array whose every element is 1, from an initial value 1, is 1 at every result
    index (the converse of: a reduction by `and` that is 1 met only 1s). -/
theorem reduce_andi_one_of_forall {s t u : Shape} {axes : List (Fin s.rank)} (x : s.Idx → BitVec 1)
    (init : u.Idx → BitVec 1) (h : s.ReducesTo axes t) (hu : 0 < u.numel) (hx : ∀ i, x i = 1#1)
    (hinit : ∀ k, init k = 1#1) (j : t.Idx) :
    Host.reduce IntOp.andi x init h hu j = 1#1 := by
  rw [Host.reduce_eq_foldl, hinit]
  exact foldl_andi_one x hx _

/-! ## A maximum-reduction of reals is a real -/

/-- A left fold by `max` over extended reals that starts at a real and meets only reals comes out a real. -/
theorem foldl_max_real {ι : Type} (f : ι → EReal) (hf : ∀ n, ∃ r : ℝ, f n = (r : EReal)) :
    ∀ (l : List ι) (r : ℝ), ∃ M : ℝ, l.foldl (fun a n => max a (f n)) (r : EReal) = (M : EReal)
  | [], r => ⟨r, rfl⟩
  | a :: l, r => by
    obtain ⟨ra, hra⟩ := hf a
    rw [List.foldl_cons, hra, ← EReal.coe_strictMono.monotone.map_max]
    exact foldl_max_real f hf l _

/-- A left fold by `max` from `−∞` over a non-empty list of reals comes out a real: the first step leaves the first
    element. -/
theorem foldl_max_bot_real {ι : Type} (f : ι → EReal) (hf : ∀ n, ∃ r : ℝ, f n = (r : EReal)) (l : List ι)
    (hl : l ≠ []) : ∃ M : ℝ, l.foldl (fun a n => max a (f n)) (⊥ : EReal) = (M : EReal) := by
  match l, hl with
  | a :: l, _ =>
    obtain ⟨ra, hra⟩ := hf a
    rw [List.foldl_cons, hra, max_eq_right bot_le]
    exact foldl_max_real f hf l ra

/-- At the ideal values, a reduction by maximum from `−∞` of an array of reals is a real at every result index that some
    operand index reduces into (over an empty fibre it stays `−∞`). -/
theorem reduce_max_real {s t u : Shape} {axes : List (Fin s.rank)} {φ : FTy} (x : FVec Ideal s φ)
    (init : u.Idx → Ideal φ) (h : s.ReducesTo axes t) (hu : 0 < u.numel) (hinit : ∀ k, init k = (⊥ : EReal))
    (hx : ∀ i, ∃ r : ℝ, x i = (r : EReal)) (j : t.Idx) (hne : ∃ i, h.drop i = j) :
    ∃ M : ℝ, Host.reduce (FloatOps.maximumf (F := Ideal)) x init h hu j = (M : EReal) := by
  rw [Host.reduce_eq_foldl, hinit]
  obtain ⟨i, hi⟩ := hne
  refine foldl_max_bot_real x hx _ (List.ne_nil_of_mem (a := i) ?_)
  rw [List.mem_filter]
  exact ⟨List.mem_map.2 ⟨s.rowMajor i, List.mem_finRange _, Equiv.symm_apply_apply _ _⟩, by simp [hi]⟩

end Idealize.ShloMosaic.LibGatherLast

end
-- ==== Proof.RefValue.lean ====
/-
  The reference's result, index by index, for indices that are row numbers.

  `take_along_axis` first wraps a negative index (`idx + 4096` where `idx < 0`), tests `0 ≤ idx' ≤ 4095` on the
  wrapped index, gathers row `idx'` (clamped) of the batch's slab, and puts a fill value where the test failed. For
  `0 ≤ idx < 4096` nothing wraps, the test passes, the clamp is the identity: the row read is row `idx[b, n]`. The
  linear head then contracts that row with `W[:, 0]` and adds the bias, which is the result by rows of the
  specification.
-/
import proofs.«406566_j74741020885454_1_alg».proof.Proof.Gen.ReferenceIdeal.Run
import proofs.«406566_j74741020885454_1_alg».proof.Proof.Gen.ReferenceIdeal.Read
import proofs.«406566_j74741020885454_1_alg».proof.Proof.Spec
import proofs.«406566_j74741020885454_1_alg».proof.Proof.LibBatchRowGather
import proofs.«406566_j74741020885454_1_alg».proof.Proof.LibGatherLast
import Idealize.ShloMosaic.Lib.Affine

noncomputable section

open scoped BigOperators

namespace Cert.ReferenceIdeal.RefValue

open Cert.ReferenceIdeal Cert.ReferenceIdeal.Gen Cert.ReferenceIdeal.Read Idealize.ShloMosaic Idealize.ShloMosaic.ValueIdx
open Cert.ClsHead (InRange rowOf headOfRow)

/-- The index array set up as `[32, 128, 1]`: entry `(b, n, 0)` is `idx[b, n]`. -/
theorem idxcol_apply (x1 : IVec S32x128 32) (b : Fin 32) (n : Fin 128) :
    val_main_v0 (F := Ideal) x1 (ix3 b n (0 : Fin 1)) = x1 (ix2 b n) := by
  rw [val_main_v0_apply]
  exact congrArg x1 (funext fun a => Fin.ext (by match a with | ⟨0, _⟩ => rfl | ⟨1, _⟩ => rfl))

/-- An index that is a row number is not wrapped: the start index the gather uses is the index itself. -/
theorem start_eq (x1 : IVec S32x128 32) (hr : InRange x1) (b : Fin 32) (n : Fin 128) :
    val_main_call0_v4 (F := Ideal) x1 (ix3 b n (0 : Fin 1)) = x1 (ix2 b n) := by
  obtain ⟨h0, _⟩ := hr (ix2 b n)
  rw [val_main_call0_v4_apply, val_main_call0_v1_apply, idxcol_apply, val_main_call0_v0_apply, val_main_call0_c_apply]
  have hneg : IntOp.cmpi .slt (x1 (ix2 b n)) 0#32 = 0#1 := eq_zero_of_ne_one fun h => by
    have h' := IntOp.cmpi_slt.1 h
    rw [show (0#32 : BitVec 32).toInt = 0 from by decide] at h'
    omega
  rw [hneg, select_zero]

/-- Every entry of the bounds test is one: the start index is in `[0, 4095]`. -/
theorem bounds_bit (x1 : IVec S32x128 32) (hr : InRange x1) (i : S32x128x1.Idx) :
    val_main_call0_v10 (F := Ideal) x1 i = 1#1 := by
  obtain ⟨b, n, z, rfl⟩ : ∃ (b : Fin 32) (n : Fin 128) (z : Fin 1), i = ix3 b n z := ⟨i 0, i 1, i 2, eq_ix3 i⟩
  obtain rfl : z = 0 := Subsingleton.elim _ _
  obtain ⟨h0, h1⟩ := hr (ix2 b n)
  rw [val_main_call0_v10_apply, val_main_call0_v6_apply, val_main_call0_v9_apply, start_eq x1 hr b n,
    val_main_call0_v5_apply, val_main_call0_c_2_apply, val_main_call0_v8_apply, val_main_call0_v7_apply,
    val_main_call0_c_1_apply]
  refine IntOp.andi_eq_one.2 ⟨IntOp.cmpi_sge.2 ?_, IntOp.cmpi_sle.2 ?_⟩
  · rw [show (0#32 : BitVec 32).toInt = 0 from by decide]; exact h0
  · rw [show (4095#32 : BitVec 32).toInt = 4095 from by decide]; omega

/-- So the test's `all` over the unit index-vector axis is one at every `(b, n)`. -/
theorem inbounds_eq_one (x1 : IVec S32x128 32) (hr : InRange x1) (j : S32x128.Idx) :
    val_main_call0_v11 (F := Ideal) x1 j = 1#1 := by
  unfold val_main_call0_v11
  exact LibGatherLast.reduce_andi_one_of_forall _ _ _ _ (bounds_bit x1 hr) (fun _ => rfl) j

/-- THE ROW READ: entry `(b, n, h)` of the gathered, filled array is the slab's at row `idx[b, n]`. -/
theorem row_apply (x0 : FVec Ideal S32x4096x768 .f32) (x1 : IVec S32x128 32) (hr : InRange x1)
    (b : Fin 32) (n : Fin 128) (h : Fin 768) :
    val_main_v1 (F := Ideal) x0 x1 (ix3 b n h) = x0 (ix3 b (rowOf (x1 (ix2 b n))) h) := by
  obtain ⟨h0, h1⟩ := hr (ix2 b n)
  rw [val_main_v1_apply, val_main_call0_v13_apply, inbounds_eq_one x1 hr, select_one]
  unfold val_main_call0_v12
  exact LibBatchRowGather.batchRowGather_apply_of_lt (B := 32) (S := 4096) (H := 768) (N := 128) gather_S32x4096x768_S32x128x1_S32x128x768_2_1_0_0_1_2_11768
    rfl rfl rfl rfl rfl rfl x0 _ b n h (rowOf (x1 (ix2 b n))) (by
      rw [start_eq x1 hr b n]
      show (x1 (ix2 b n)).toInt = ((min (x1 (ix2 b n)).toInt.toNat 4095 : ℕ) : ℤ)
      omega)

/-- THE REFERENCE IS THE RESULT BY ROWS, for indices that are row numbers. -/
theorem ref_eq (x0 : FVec Ideal S32x4096x768 .f32) (x1 : IVec S32x128 32) (x2 : FVec Ideal S768x1 .f32)
    (x3 : FVec Ideal S1 .f32) (hr : InRange x1) :
    val_main_v6 (F := Ideal) x0 x1 x2 x3 = headOfRow x0 x1 x2 x3 := by
  funext i
  obtain ⟨b, n, rfl⟩ : ∃ (b : Fin 32) (n : Fin 128), i = ix2 b n := ⟨i 0, i 1, eq_ix2 i⟩
  have hb := b.isLt
  have hn := n.isLt
  have e6 : idx_main_v6 (ix2 b n) = ix3 b n (0 : Fin 1) := funext fun a => Fin.ext (by
    match a with
    | ⟨0, _⟩ => show (b.val * 128 + n.val) / 128 = b.val; omega
    | ⟨1, _⟩ => show (b.val * 128 + n.val) / 1 % 128 = n.val; omega
    | ⟨2, _⟩ => rfl)
  rw [val_main_v6_apply, e6, val_main_v5_apply, val_main_v2_apply, val_main_v4_apply, val_main_v3_apply]
  unfold headOfRow
  show (∑ k : Fin 768, _) + _ = _
  congr 1
  · refine Finset.sum_congr rfl fun k _ => ?_
    have el : lidx_main_v2 (ix3 b n (0 : Fin 1)) k = ix3 b n k := funext fun a => Fin.ext (by
      match a with
      | ⟨0, _⟩ => rfl
      | ⟨1, _⟩ => rfl
      | ⟨2, _⟩ => rfl)
    have er : ridx_main_v2 (ix3 b n (0 : Fin 1)) k = ix2 k (0 : Fin 1) := funext fun a => Fin.ext (by
      match a with
      | ⟨0, _⟩ => rfl
      | ⟨1, _⟩ => rfl)
    rw [el, er, row_apply x0 x1 hr b n k]
  · exact congrArg x3 (funext fun a => Fin.ext (by match a with | ⟨0, _⟩ => rfl))

end Cert.ReferenceIdeal.RefValue

end
-- ==== Proof.lean ====
/-
  A per-sentence linear head over gathered rows: `out[b, n] = (∑ h, enc[b, idx[b, n], h] · W[h, 0]) + bias[0]` for
  `enc : [32, 4096, 768]`, `idx : [32, 128]`, `W : [768, 1]`, `bias : [1]`.

  The reference gathers row `idx[b, n]` of batch `b` (`take_along_axis`: a negative index wraps, an index outside
  `[-4096, 4096)` reads a fill value) and contracts it with the head. The kernel has no gather: per batch it multiplies
  the whole `[4096, 768]` slab from the left by the `[128, 4096]` indicator matrix `E[n, s] = [s = idx[b, n]]`, then by
  the head, and adds the bias. For an index that is a row number, `0 ≤ idx[b, n] < 4096`, row `n` of the indicator has
  exactly one `1`, the other terms of `∑ s, E[n, s] · enc[b, s, h]` are `0 · x = 0` on the extended reals (whatever
  `x` is: no finiteness is used), and the sum is the gathered row. Outside that range the two programs differ (the
  indicator row is all zero while the reference wraps or fills), so the claim is stated for indices in range: the
  precondition carries `0 ≤ idx < 4096`, the range of the axis the indices index.

  The modules: Spec (the two forms of the result and the selection law), PreRange (the precondition gives the range),
  KernelPay (the stored block at a position), KernelValue (the blocks tile the result; the program's result array),
  RefValue (the reference's result, index by index), LibBatchRowGather (a batched gather of whole rows at an index).
  The idealization rewrote nothing, so `preserves` is trivial.
-/
import proofs.«406566_j74741020885454_1_alg».proof.Defs
import proofs.«406566_j74741020885454_1_alg».proof.Proof.Gen.Kernel
import proofs.«406566_j74741020885454_1_alg».proof.Proof.Gen.Kernel.Skeleton
import proofs.«406566_j74741020885454_1_alg».proof.Proof.Gen.Kernel.Launch
import proofs.«406566_j74741020885454_1_alg».proof.Proof.Gen.Kernel.Points
import proofs.«406566_j74741020885454_1_alg».proof.Proof.Gen.Kernel.Frame
import proofs.«406566_j74741020885454_1_alg».proof.Proof.Gen.KernelIdeal
import proofs.«406566_j74741020885454_1_alg».proof.Proof.Gen.KernelIdeal.Skeleton
import proofs.«406566_j74741020885454_1_alg».proof.Proof.Gen.KernelIdeal.Launch
import proofs.«406566_j74741020885454_1_alg».proof.Proof.Gen.KernelIdeal.Points
import proofs.«406566_j74741020885454_1_alg».proof.Proof.Gen.KernelIdeal.Frame
import proofs.«406566_j74741020885454_1_alg».proof.Proof.Gen.ReferenceIdeal
import proofs.«406566_j74741020885454_1_alg».proof.Proof.Gen.ReferenceIdeal.Run
import proofs.«406566_j74741020885454_1_alg».proof.Proof.Gen.ReferenceIdeal.Read
import proofs.«406566_j74741020885454_1_alg».proof.Proof.Gen.Pre_finite_inputs
import proofs.«406566_j74741020885454_1_alg».proof.Proof.Spec
import proofs.«406566_j74741020885454_1_alg».proof.Proof.PreRange
import proofs.«406566_j74741020885454_1_alg».proof.Proof.KernelValue
import proofs.«406566_j74741020885454_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- On the extended reals, from arguments that agree and satisfy the precondition, both programs end with the result by
    rows: the kernel's indicator-weighted sums select the rows (the indices are row numbers), and the reference's gather
    reads them. -/
theorem algebraic : Cert.algebraic_KernelIdeal_ReferenceIdeal := by
  intro m ρ m' ρ' hpre hagree
  have hr : ∀ c : Dev Cert.KernelIdeal.nD, Cert.ClsHead.InRange (m ((c.tc : Thread Cert.KernelIdeal.nD Cert.KernelIdeal.τ).loc Cert.KernelIdeal.main_arg1)) :=
    fun c => Cert.ClsHead.inRange_of_pre _ _ _ _ (hpre c)
  refine ⟨fun c => Cert.ClsHead.headOfRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.ClsHead.headOfIndicator_eq _ _ _ _ (hr c)), (h c).2⟩)
      (Cert.KernelIdeal.Hand.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, (hagree c).1, (hagree c).2.1, (hagree c).2.2.1, (hagree c).2.2.2]
    exact Cert.ReferenceIdeal.RefValue.ref_eq _ _ _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
